-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x10000x3 : Shape := ⟨3, ![2000, 10000, 3]⟩
abbrev S_ : Shape := ⟨0, ![]⟩

class Facts : Prop where
  bcast_S_S2000x10000x3 : S_.BroadcastsInDim S2000x10000x3 (![] : Fin 0 → Fin S2000x10000x3.rank)
  reducesTo_S2000x10000x3_S_d0_1_2 : S2000x10000x3.ReducesTo [0, 1, 2] S_
  h_S_ : 0 < S_.numel

variable [Facts]

def fn {F : FTy → Type} [FloatOps F] (main_arg0 : FVec F S2000x10000x3 .f32) (main_arg1 : FVec F S2000x10000x3 .f32) : IVec S_ 1 :=
  let main_v0 : FVec F S2000x10000x3 .f32 := Host.absf main_arg0
  let main_cst : FVec F S_ .f32 := constant S_ .f32 0x7F800000#32
  let main_v1 : FVec F S2000x10000x3 .f32 := broadcastInDim S2000x10000x3 ![] bcast_S_S2000x10000x3 main_cst
  let main_v2 : IVec S2000x10000x3 1 := cmpf .olt main_v0 main_v1
  let main_c : IVec S_ 1 := constantI S_ 1 1#1
  let main_v3 : IVec S_ 1 := (fun x v => Host.reduce IntOp.andi x v reducesTo_S2000x10000x3_S_d0_1_2 h_S_) main_v2 main_c
  let main_v4 : FVec F S2000x10000x3 .f32 := Host.absf main_arg1
  let main_cst_0 : FVec F S_ .f32 := constant S_ .f32 0x7F800000#32
  let main_v5 : FVec F S2000x10000x3 .f32 := broadcastInDim S2000x10000x3 ![] bcast_S_S2000x10000x3 main_cst_0
  let main_v6 : IVec S2000x10000x3 1 := cmpf .olt main_v4 main_v5
  let main_c_1 : IVec S_ 1 := constantI S_ 1 1#1
  let main_v7 : IVec S_ 1 := (fun x v => Host.reduce IntOp.andi x v reducesTo_S2000x10000x3_S_d0_1_2 h_S_) main_v6 main_c_1
  let main_v8 : IVec S_ 1 := andi main_v3 main_v7
  main_v8
-- ==== Kernel.lean ====
abbrev S2000x10000x3 : Shape := ⟨3, ![2000, 10000, 3]⟩
abbrev S2000x30000 : Shape := ⟨2, ![2000, 30000]⟩
abbrev S_ : Shape := ⟨0, ![]⟩
abbrev S2000x30080 : Shape := ⟨2, ![2000, 30080]⟩
abbrev S1x30080 : Shape := ⟨2, ![1, 30080]⟩
abbrev S2000x640 : Shape := ⟨2, ![2000, 640]⟩
abbrev S1x640 : Shape := ⟨2, ![1, 640]⟩
abbrev S640 : Shape := ⟨1, ![640]⟩
abbrev S1x30000 : Shape := ⟨2, ![1, 30000]⟩
abbrev S30000 : Shape := ⟨1, ![30000]⟩
abbrev S10000x3 : Shape := ⟨2, ![10000, 3]⟩
abbrev S3 : Shape := ⟨1, ![3]⟩

abbrev nBuf : Space → Nat
  | .hbm => 49
  | .vmem => 8
  | .smem => 0
  | _ => 0

abbrev bufTy : (tb : Table) → Fin (tcTables nBuf tb) → BufTy
  | .hbm, ⟨0, _⟩ => ⟨S2000x10000x3, .f32⟩
  | .hbm, ⟨1, _⟩ => ⟨S2000x10000x3, .f32⟩
  | .hbm, ⟨2, _⟩ => ⟨S2000x30000, .f32⟩
  | .hbm, ⟨3, _⟩ => ⟨S2000x30000, .f32⟩
  | .hbm, ⟨4, _⟩ => ⟨S_, .i32⟩
  | .hbm, ⟨5, _⟩ => ⟨S_, .f32⟩
  | .hbm, ⟨6, _⟩ => ⟨S2000x30080, .f32⟩
  | .hbm, ⟨7, _⟩ => ⟨S_, .i32⟩
  | .hbm, ⟨8, _⟩ => ⟨S_, .f32⟩
  | .hbm, ⟨9, _⟩ => ⟨S2000x30080, .f32⟩
  | .hbm, ⟨10, _⟩ => ⟨S1x30080, .f32⟩
  | .hbm, ⟨11, _⟩ => ⟨S1x30080, .f32⟩
  | .hbm, ⟨12, _⟩ => ⟨S1x30000, .f32⟩
  | .hbm, ⟨13, _⟩ => ⟨S30000, .f32⟩
  | .hbm, ⟨14, _⟩ => ⟨S10000x3, .f32⟩
  | .hbm, ⟨15, _⟩ => ⟨S1x30000, .f32⟩
  | .hbm, ⟨16, _⟩ => ⟨S30000, .f32⟩
  | .hbm, ⟨17, _⟩ => ⟨S10000x3, .f32⟩
  | .hbm, ⟨18, _⟩ => ⟨S_, .f32⟩
  | .hbm, ⟨19, _⟩ => ⟨S10000x3, .f32⟩
  | .hbm, ⟨20, _⟩ => ⟨S10000x3, .f32⟩
  | .hbm, ⟨21, _⟩ => ⟨S10000x3, .f32⟩
  | .hbm, ⟨22, _⟩ => ⟨S_, .f32⟩
  | .hbm, ⟨23, _⟩ => ⟨S10000x3, .f32⟩
  | .hbm, ⟨24, _⟩ => ⟨S10000x3, .i1⟩
  | .hbm, ⟨25, _⟩ => ⟨S_, .f32⟩
  | .hbm, ⟨26, _⟩ => ⟨S_, .f32⟩
  | .hbm, ⟨27, _⟩ => ⟨S10000x3, .f32⟩
  | .hbm, ⟨28, _⟩ => ⟨S10000x3, .f32⟩
  | .hbm, ⟨29, _⟩ => ⟨S_, .f32⟩
  | .hbm, ⟨30, _⟩ => ⟨S3, .f32⟩
  | .hbm, ⟨31, _⟩ => ⟨S10000x3, .f32⟩
  | .hbm, ⟨32, _⟩ => ⟨S_, .f32⟩
  | .hbm, ⟨33, _⟩ => ⟨S3, .f32⟩
  | .hbm, ⟨34, _⟩ => ⟨S_, .f32⟩
  | .hbm, ⟨35, _⟩ => ⟨S3, .f32⟩
  | .hbm, ⟨36, _⟩ => ⟨S3, .i1⟩
  | .hbm, ⟨37, _⟩ => ⟨S_, .f32⟩
  | .hbm, ⟨38, _⟩ => ⟨S3, .f32⟩
  | .hbm, ⟨39, _⟩ => ⟨S3, .f32⟩
  | .hbm, ⟨40, _⟩ => ⟨S3, .f32⟩
  | .hbm, ⟨41, _⟩ => ⟨S_, .f32⟩
  | .hbm, ⟨42, _⟩ => ⟨S_, .f32⟩
  | .hbm, ⟨43, _⟩ => ⟨S3, .f32⟩
  | .hbm, ⟨44, _⟩ => ⟨S3, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S2000x640, .f32⟩
  | .local _ .vmem, ⟨1, _⟩ => ⟨S2000x640, .f32⟩
  | .local _ .vmem, ⟨2, _⟩ => ⟨S2000x640, .f32⟩
  | .local _ .vmem, ⟨3, _⟩ => ⟨S2000x640, .f32⟩
  | .local _ .vmem, ⟨4, _⟩ => ⟨S1x640, .f32⟩
  | .local _ .vmem, ⟨5, _⟩ => ⟨S1x640, .f32⟩
  | .local _ .vmem, ⟨6, _⟩ => ⟨S1x640, .f32⟩
  | .local _ .vmem, ⟨7, _⟩ => ⟨S1x640, .f32⟩
  | _, _ => ⟨S2000x10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call2_v0 : Ref sig .tc := ⟨.hbm, 26, rfl⟩
abbrev main_call2_v1 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_call3_v0 : Ref sig .tc := ⟨.hbm, 42, rfl⟩
abbrev main_call3_v1 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![47], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2000x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2000x10000x3_S2000x30000 : S2000x10000x3.ShapeCasts S2000x30000
  pads_S2000x30000_S2000x30080_000_0800 : S2000x30000.Pads (![0, 0] : Fin 2 → Nat) ![0, 80] ![0, 0] S2000x30080
  h_S_ : 0 < S_.numel
  inb_S2000x640_S2000x640_0_0 : ∀ a, (![0, 0] : Fin 2 → Nat) a + S2000x640.size a ≤ S2000x640.size a
  h_S2000x640 : 0 < S2000x640.numel
  shapeCasts_S2000x640_S2000x640 : S2000x640.ShapeCasts S2000x640
  reduces_S2000x640_S640 : S2000x640.Reduces [0] S640
  shapeCasts_S640_S1x640 : S640.ShapeCasts S1x640
  inb_S1x640_S1x640_0_0 : ∀ a, (![0, 0] : Fin 2 → Nat) a + S1x640.size a ≤ S1x640.size a
  h_S1x640 : 0 < S1x640.numel
  natLt_1_32 : 1 < 32
  slices_S1x30080_S1x30000_0_0 : S1x30080.Slices ![0, 0] S1x30000
  shapeCasts_S1x30000_S30000 : S1x30000.ShapeCasts S30000
  shapeCasts_S30000_S10000x3 : S30000.ShapeCasts S10000x3
  bcast_S_S10000x3 : S_.BroadcastsInDim S10000x3 (![] : Fin 0 → Fin S10000x3.rank)
  reducesTo_S10000x3_S3_d0 : S10000x3.ReducesTo [0] S3
  bcast_S_S3 : S_.BroadcastsInDim S3 (![] : Fin 0 → Fin S3.rank)
  reducesTo_S3_S_d0 : S3.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x640.size a ≤ S2000x30080.size a
  hwx0_0 : ∀ i : grid0.Coords, EltTy.bits .f32 = 32 ∨ (Rect.block (s := S2000x30080) S2000x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x640.size a ≤ S2000x30080.size a
  hwx0_1 : ∀ i : grid0.Coords, EltTy.bits .f32 = 32 ∨ (Rect.block (s := S2000x30080) S2000x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x30080.size a
  hwx0_2 : ∀ i : grid0.Coords, EltTy.bits .f32 = 32 ∨ (Rect.block (s := S1x30080) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x640.size a ≤ S1x30080.size a
  hwx0_3 : ∀ i : grid0.Coords, EltTy.bits .f32 = 32 ∨ (Rect.block (s := S1x30080) S1x640.size (cc0_transform_3 i) (hinb0_3 i)).WholeWords (EltTy.packing .f32)

variable [Facts₀]

abbrev win0_0 : Pipeline.Window sig grid0 :=
  Pipeline.Window.ofSpec (Memref.whole main_v2) S2000x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2000x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x640.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000x10000x3 : Shape := ⟨3, ![2000, 10000, 3]⟩
abbrev S_ : Shape := ⟨0, ![]⟩
abbrev S10000x3 : Shape := ⟨2, ![10000, 3]⟩
abbrev S3 : Shape := ⟨1, ![3]⟩

abbrev nBuf : Space → Nat
  | .hbm => 57
  | .vmem => 0
  | .smem => 0
  | _ => 0

abbrev bufTy : (tb : Table) → Fin (tcTables nBuf tb) → BufTy
  | .hbm, ⟨0, _⟩ => ⟨S2000x10000x3, .f32⟩
  | .hbm, ⟨1, _⟩ => ⟨S2000x10000x3, .f32⟩
  | .hbm, ⟨2, _⟩ => ⟨S2000x10000x3, .f32⟩
  | .hbm, ⟨3, _⟩ => ⟨S2000x10000x3, .i1⟩
  | .hbm, ⟨4, _⟩ => ⟨S2000x10000x3, .i1⟩
  | .hbm, ⟨5, _⟩ => ⟨S_, .f32⟩
  | .hbm, ⟨6, _⟩ => ⟨S_, .f32⟩
  | .hbm, ⟨7, _⟩ => ⟨S2000x10000x3, .f32⟩
  | .hbm, ⟨8, _⟩ => ⟨S2000x10000x3, .f32⟩
  | .hbm, ⟨9, _⟩ => ⟨S_, .f32⟩
  | .hbm, ⟨10, _⟩ => ⟨S_, .f32⟩
  | .hbm, ⟨11, _⟩ => ⟨S2000x10000x3, .f32⟩
  | .hbm, ⟨12, _⟩ => ⟨S2000x10000x3, .f32⟩
  | .hbm, ⟨13, _⟩ => ⟨S2000x10000x3, .f32⟩
  | .hbm, ⟨14, _⟩ => ⟨S2000x10000x3, .f32⟩
  | .hbm, ⟨15, _⟩ => ⟨S_, .f32⟩
  | .hbm, ⟨16, _⟩ => ⟨S_, .f32⟩
  | .hbm, ⟨17, _⟩ => ⟨S2000x10000x3, .f32⟩
  | .hbm, ⟨18, _⟩ => ⟨S2000x10000x3, .f32⟩
  | .hbm, ⟨19, _⟩ => ⟨S2000x10000x3, .i32⟩
  | .hbm, ⟨20, _⟩ => ⟨S_, .i32⟩
  | .hbm, ⟨21, _⟩ => ⟨S10000x3, .i32⟩
  | .hbm, ⟨22, _⟩ => ⟨S_, .f32⟩
  | .hbm, ⟨23, _⟩ => ⟨S10000x3, .f32⟩
  | .hbm, ⟨24, _⟩ => ⟨S_, .i32⟩
  | .hbm, ⟨25, _⟩ => ⟨S10000x3, .i32⟩
  | .hbm, ⟨26, _⟩ => ⟨S10000x3, .i32⟩
  | .hbm, ⟨27, _⟩ => ⟨S10000x3, .f32⟩
  | .hbm, ⟨28, _⟩ => ⟨S10000x3, .f32⟩
  | .hbm, ⟨29, _⟩ => ⟨S_, .i32⟩
  | .hbm, ⟨30, _⟩ => ⟨S10000x3, .i32⟩
  | .hbm, ⟨31, _⟩ => ⟨S10000x3, .i1⟩
  | .hbm, ⟨32, _⟩ => ⟨S_, .f32⟩
  | .hbm, ⟨33, _⟩ => ⟨S_, .f32⟩
  | .hbm, ⟨34, _⟩ => ⟨S10000x3, .f32⟩
  | .hbm, ⟨35, _⟩ => ⟨S10000x3, .f32⟩
  | .hbm, ⟨36, _⟩ => ⟨S_, .f32⟩
  | .hbm, ⟨37, _⟩ => ⟨S3, .f32⟩
  | .hbm, ⟨38, _⟩ => ⟨S10000x3, .i32⟩
  | .hbm, ⟨39, _⟩ => ⟨S_, .i32⟩
  | .hbm, ⟨40, _⟩ => ⟨S3, .i32⟩
  | .hbm, ⟨41, _⟩ => ⟨S_, .i32⟩
  | .hbm, ⟨42, _⟩ => ⟨S3, .i32⟩
  | .hbm, ⟨43, _⟩ => ⟨S3, .i1⟩
  | .hbm, ⟨44, _⟩ => ⟨S_, .i32⟩
  | .hbm, ⟨45, _⟩ => ⟨S3, .i32⟩
  | .hbm, ⟨46, _⟩ => ⟨S3, .i32⟩
  | .hbm, ⟨47, _⟩ => ⟨S3, .f32⟩
  | .hbm, ⟨48, _⟩ => ⟨S3, .f32⟩
  | .hbm, ⟨49, _⟩ => ⟨S_, .f32⟩
  | .hbm, ⟨50, _⟩ => ⟨S_, .f32⟩
  | .hbm, ⟨51, _⟩ => ⟨S3, .f32⟩
  | .hbm, ⟨52, _⟩ => ⟨S3, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S2000x10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call2_v0 : Ref sig .tc := ⟨.hbm, 16, rfl⟩
abbrev main_call2_v1 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_call3_v0 : Ref sig .tc := ⟨.hbm, 33, rfl⟩
abbrev main_call3_v1 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_c_7 : Ref sig .tc := ⟨.hbm, 39, rfl⟩
abbrev main_v20 : Ref sig .tc := ⟨.hbm, 40, rfl⟩
abbrev main_c_8 : Ref sig .tc := ⟨.hbm, 41, rfl⟩
abbrev main_v21 : Ref sig .tc := ⟨.hbm, 42, rfl⟩
abbrev main_v22 : Ref sig .tc := ⟨.hbm, 43, rfl⟩
abbrev main_c_9 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_10 : Ref sig .tc := ⟨.hbm, 49, rfl⟩
abbrev main_call4_v0 : Ref sig .tc := ⟨.hbm, 50, rfl⟩
abbrev main_call4_v1 : Ref sig .tc := ⟨.hbm, 51, rfl⟩
abbrev main_v27 : Ref sig .tc := ⟨.hbm, 52, rfl⟩
abbrev main_cst_11 : Ref sig .tc := ⟨.hbm, 53, rfl⟩
abbrev main_v28 : Ref sig .tc := ⟨.hbm, 54, rfl⟩
abbrev main_cst_12 : Ref sig .tc := ⟨.hbm, 55, rfl⟩
abbrev main_v29 : Ref sig .tc := ⟨.hbm, 56, rfl⟩

abbrev nD : Nat := 1
abbrev τ : Topo := Topo.v7x

variable {F : FTy → Type} [FloatOps F]

class Facts₀ : Prop where
  bcast_S_S2000x10000x3 : S_.BroadcastsInDim S2000x10000x3 (![] : Fin 0 → Fin S2000x10000x3.rank)
  natLt_1_32 : 1 < 32
  reducesTo_S2000x10000x3_S10000x3_d0 : S2000x10000x3.ReducesTo [0] S10000x3
  h_S_ : 0 < S_.numel
  bcast_S_S10000x3 : S_.BroadcastsInDim S10000x3 (![] : Fin 0 → Fin S10000x3.rank)
  reducesTo_S10000x3_S3_d0 : S10000x3.ReducesTo [0] S3
  bcast_S_S3 : S_.BroadcastsInDim S3 (![] : Fin 0 → Fin S3.rank)
  reducesTo_S3_S_d0 : S3.ReducesTo [0] S_

variable [Facts₀]

class Facts : Prop extends Facts₀ where

variable [Facts]
-- ==== Proof.MaskCount.lean ====
/-
  Masks and counts at the extended reals.

  Both programs mask the squared differences by "the difference is not a NaN".  At the extended reals
  nothing is unordered: a value never differs from itself, so "ordered and unequal" (the kernel's test)
  and "unordered or unequal" (the host's test) of a value with itself are both false, and the negated
  test is true at every index.  Every count of valid entries is then the extent of the axis counted:
  a float sum of ones on the kernel's side, a word sum of ones on the host's side (no wrap: the extents
  are far below 2^32), and the two agree once the word is read as a number.
-/
import Idealize.ShloMosaic.PureOps.Ideal
import Idealize.ShloMosaic.PureOps.Ideal.Laws
import Idealize.ShloMosaic.PureOps.Reduce
import Idealize.ShloMosaic.Lib.StableHlo.Predicate

noncomputable section

namespace Cert.MaskCount

open Idealize.ShloMosaic

/-! ## The masks -/

/-- A value is never "ordered and unequal" to itself. -/
theorem cmp_one_self (x : EReal) : Ideal.cmp .one x x = 0#1 := by simp [Ideal.cmp]

/-- A value is never "unordered or unequal" to itself. -/
theorem cmp_une_self (x : EReal) : Ideal.cmp .une x x = 0#1 := by simp [Ideal.cmp]

/-- The kernel's mask, (not (d one d)) spelt as an exclusive or with true, is true everywhere. -/
theorem kernel_mask {s : Shape} (d : FVec Ideal s .f32) :
    xori (cmpf .one d d) (constantI s 1 1#1) = fun _ => 1#1 := by
  funext i
  show IntOp.xori (Ideal.cmp .one (d i) (d i)) 1#1 = 1#1
  rw [cmp_one_self]; rfl

/-- The host's mask, not (d une d), is true everywhere. -/
theorem host_mask {s : Shape} (d : FVec Ideal s .f32) :
    noti (cmpf .une d d) = fun _ => 1#1 := by
  funext i
  show ~~~(Ideal.cmp .une (d i) (d i)) = 1#1
  rw [cmp_une_self]; rfl

/-- Selecting under an all-true mask keeps the first operand. -/
theorem select_ones {s : Shape} {α : Type} (a b : s.Idx → α) : select (fun _ => 1#1) a b = a := by
  funext i; rfl

/-! ## Ones as numbers -/

/-- A true bit widened to a word and read signed is the number one. -/
theorem sitofp_ext_one : FloatOps.sitofp (F := Ideal) .f32 ((1#1 : BitVec 1).setWidth 32) = (1 : EReal) := by
  show (((((1#1 : BitVec 1).setWidth 32).toInt : ℤ) : ℝ) : EReal) = 1
  rw [show ((1#1 : BitVec 1).setWidth 32).toInt = 1 from by decide]; simp

/-- A true bit read unsigned is the number one. -/
theorem uitofp_one : FloatOps.uitofp (F := Ideal) .f32 (1#1 : BitVec 1) = (1 : EReal) := by
  show ((((1#1 : BitVec 1).toNat : ℕ) : ℝ) : EReal) = 1
  simp

/-- The word 0x3F800000 is the number one. -/
theorem ofBits_one_f32 : Ideal.ofBits .f32 0x3F800000#32 = 1 := by
  simp [Ideal.ofBits, Ideal.ieee]
  rw [← EReal.coe_mul]; norm_num

/-- A sum of n ones is n. -/
theorem sum_ones (n : ℕ) : (∑ _k : Fin n, (1 : EReal)) = ((n : ℝ) : EReal) := by
  induction n with
  | zero => simp
  | succ n ih => rw [Fin.sum_univ_castSucc, ih]; push_cast; rfl

/-- The number one is the larger of a count of at least one and the word for 1.0. -/
theorem max_count_one (n : ℕ) (hn : 1 ≤ n) :
    max (((n : ℝ) : EReal)) (Ideal.ofBits .f32 0x3F800000#32) = ((n : ℝ) : EReal) := by
  rw [ofBits_one_f32]
  exact max_eq_left (by exact_mod_cast hn)

/-- A count of at least one is greater than the word for 0.0. -/
theorem ogt_count_zero (n : ℕ) (hn : 1 ≤ n) :
    Ideal.cmp .ogt (((n : ℝ) : EReal)) (Ideal.ofBits .f32 0x00000000#32) = 1#1 := by
  rw [Ideal.ofBits_zero_f32]
  have hn' : 0 < n := hn
  simp [Ideal.cmp, hn']

/-! ## A word sum of ones -/

/-- A true bit widened to a word is the word one. -/
theorem widened_one : ((1#1 : BitVec 1).setWidth 32) = 1#32 := by decide

/-- Summing the word one along one axis, of extent below 2^32, gives the extent: the sum does not wrap. -/
theorem reduce_addi_ones {s t u : Shape} {a : Fin s.rank} (x : IVec s 32) (hx : ∀ i, x i = 1#32)
    (h' : s.ReducesTo [a] t) (h : s.Reduces [a] t) (hu : 0 < u.numel) (hn : s.size a < 2 ^ 32) (j : t.Idx) :
    Host.reduce IntOp.addi x (constantI u 32 0#32) h' hu j = BitVec.ofNat 32 (s.size a) := by
  rw [Host.reduce_eq_fold_single IntOp.addi x _ h' h hu j]
  apply BitVec.eq_of_toNat_eq
  have hs : ∑ k ∈ (Finset.univ : Finset (Fin (s.size a))), ((x ∘ h.lift j) k).toNat = s.size a := by
    simp [hx]
  show (Finset.fold IntOp.addi 0#32 (x ∘ h.lift j) Finset.univ).toNat = _
  rw [StableHlo.Predicate.toNat_fold_addi _ _ (by rw [hs]; exact hn), hs, BitVec.toNat_ofNat, Nat.mod_eq_of_lt hn]

/-- A word below 2^31 read signed is its value. -/
theorem sitofp_ofNat (n : ℕ) (hn : n < 2 ^ 31) :
    FloatOps.sitofp (F := Ideal) .f32 (BitVec.ofNat 32 n) = ((n : ℝ) : EReal) := by
  show ((((BitVec.ofNat 32 n).toInt : ℤ) : ℝ) : EReal) = _
  rw [StableHlo.Predicate.toInt_eq_toNat_of_lt (by rw [BitVec.toNat_ofNat]; omega), BitVec.toNat_ofNat,
    Nat.mod_eq_of_lt (by omega)]
  simp

end Cert.MaskCount

end
-- ==== Proof.MeanSpec.lean ====
/-
  The specification: the mean over the three variables of the mean over the sites of the mean over
  time of the squared difference.

  `sqSums o t` is, per site j and variable k, the sum over the 2000 time steps of (o − t)².
  `meanOfMeans` divides each such sum by 2000 (every time step is valid: no entry of a difference of
  extended reals is unordered), adds the quotients over the 10000 sites and divides by 10000 (every
  site is valid), adds over the three variables and divides by three.  The sums over sites and over
  variables and the three quotients are spelt with the host's own operations, so that each program's
  text ends in this very term and none of them is ever opened.
-/
import Idealize.ShloMosaic.PureOps.Ideal
import Idealize.ShloMosaic.Lib.ValueIdx

noncomputable section

namespace Cert.MeanSpec

open Idealize.ShloMosaic Idealize.ShloMosaic.ValueIdx

/-- time × site × variable -/
abbrev Sfull : Shape := ⟨3, ![2000, 10000, 3]⟩
/-- site × variable -/
abbrev Ssite : Shape := ⟨2, ![10000, 3]⟩
/-- variable -/
abbrev Svar : Shape := ⟨1, ![3]⟩
/-- a scalar -/
abbrev Sone : Shape := ⟨0, ![]⟩

/-- The squared difference of two extended reals. -/
def sq (a b : EReal) : EReal := (a - b) * (a - b)

/-- Per site and variable, the sum over time of the squared differences. -/
def sqSums (o t : Sfull.Idx → EReal) : Ssite.Idx → EReal := fun i =>
  let j : Fin 10000 := i 0
  let k : Fin 3 := i 1
  ∑ τ : Fin 2000, sq (o (ix3 τ j k)) (t (ix3 τ j k))

/-- The three nested means of the per-site sums, every count at its full extent. -/
def meanOfMeans (h1 : Ssite.ReducesTo [0] Svar) (h2 : Svar.ReducesTo [0] Sone) (h0 : 0 < Sone.numel)
    (sums : FVec Ideal Ssite .f32) : FVec Ideal Sone .f32 :=
  Host.divf
    (Host.reduceAdd
      (Host.divf
        (Host.reduceAdd (Host.divf sums (fun _ => (((2000 : ℕ) : ℝ) : EReal))) (constant (F := Ideal) Sone .f32 0x00000000#32) h1 h0)
        (fun _ => (((10000 : ℕ) : ℝ) : EReal)))
      (constant (F := Ideal) Sone .f32 0x00000000#32) h2 h0)
    (constant (F := Ideal) Sone .f32 0x40400000#32)

end Cert.MeanSpec

end
-- ==== Proof.RefValue.lean ====
/-
  The reference's result is the specification.

  Stage by stage: the mask is true everywhere, so the word count over time is 2000 at every site and
  variable, its clamp below by one changes nothing, it is positive, and read as a number it is 2000;
  the valid-site count over sites is then 10000 for every variable, likewise.  The float sum over time
  of the masked squares is the plain sum of squared differences.  What remains of the program's text is
  the specification's nested means of those sums.
-/
import proofs.«157164_j7301444403962_1_alg».proof.Proof.RefRead
import proofs.«157164_j7301444403962_1_alg».proof.Proof.MaskCount
import proofs.«157164_j7301444403962_1_alg».proof.Proof.MeanSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx Cert.MeanSpec

variable (x0 x1 : (⟨S2000x10000x3, .f32⟩ : BufTy).Contents (Elt Ideal))

/-- The mask is true at every time, site and variable. -/
theorem mask_all : val_main_v2 (F := Ideal) x0 x1 = fun _ => 1#1 := by
  unfold val_main_v2 val_main_v1
  exact MaskCount.host_mask _

/-- Every site and variable counts its 2000 time steps. -/
theorem count_time : val_main_v9 (F := Ideal) x0 x1 = fun _ => BitVec.ofNat 32 2000 := by
  funext j
  unfold val_main_v9 val_main_v8 val_main_c
  rw [mask_all]
  exact MaskCount.reduce_addi_ones (extui 32 (fun _ => 1#1) natLt_1_32) (fun _ => MaskCount.widened_one)
    reducesTo_S2000x10000x3_S10000x3_d0 (by decide) h_S_ (by decide) j

/-- The divisor over time is 2000. -/
theorem den_time : val_main_v13 (F := Ideal) x0 x1 = fun _ => (((2000 : ℕ) : ℝ) : EReal) := by
  funext i
  rw [val_main_v13_apply, val_main_v12_apply, count_time, val_main_v11_apply, val_main_c_3_apply]
  rw [show IntOp.maxsi (BitVec.ofNat 32 2000) 1#32 = BitVec.ofNat 32 2000 from by decide]
  exact MaskCount.sitofp_ofNat 2000 (by norm_num)

/-- Every site and variable is valid. -/
theorem ok_time : val_main_v16 (F := Ideal) x0 x1 = fun _ => 1#1 := by
  funext i
  rw [val_main_v16_apply, count_time, val_main_v15_apply, val_main_c_4_apply]
  show IntOp.cmpi .sgt (BitVec.ofNat 32 2000) 0#32 = 1#1
  decide

/-- Every variable counts its 10000 valid sites. -/
theorem count_sites : val_main_v20 (F := Ideal) x0 x1 = fun _ => BitVec.ofNat 32 10000 := by
  funext j
  unfold val_main_v20 val_main_v19 val_main_c_7
  rw [ok_time]
  exact MaskCount.reduce_addi_ones (extui 32 (fun _ => 1#1) natLt_1_32) (fun _ => MaskCount.widened_one)
    reducesTo_S10000x3_S3_d0 (by decide) h_S_ (by decide) j

/-- The divisor over sites is 10000. -/
theorem den_sites : val_main_v25 (F := Ideal) x0 x1 = fun _ => (((10000 : ℕ) : ℝ) : EReal) := by
  funext i
  rw [val_main_v25_apply, val_main_v24_apply, count_sites, val_main_v23_apply, val_main_c_9_apply]
  rw [show IntOp.maxsi (BitVec.ofNat 32 10000) 1#32 = BitVec.ofNat 32 10000 from by decide]
  exact MaskCount.sitofp_ofNat 10000 (by norm_num)

/-- Every variable is valid. -/
theorem ok_sites : val_main_v22 (F := Ideal) x0 x1 = fun _ => 1#1 := by
  funext i
  rw [val_main_v22_apply, count_sites, val_main_v21_apply, val_main_c_8_apply]
  show IntOp.cmpi .sgt (BitVec.ofNat 32 10000) 0#32 = 1#1
  decide

/-- The index the sum over time inserts: time k at site and variable i. -/
theorem idx_time (i : S10000x3.Idx) (k : Fin 2000) :
    idx_main_v10 i k = ix3 k (show Fin 10000 from i 0) (show Fin 3 from i 1) :=
  funext fun a => Fin.ext (by match a with | ⟨0, _⟩ => rfl | ⟨1, _⟩ => rfl | ⟨2, _⟩ => rfl)

/-- The masked square at an index is the squared difference there. -/
theorem masked_square (i : S2000x10000x3.Idx) : val_main_v7 (F := Ideal) x0 x1 i = sq (x0 i) (x1 i) := by
  rw [val_main_v7_apply, val_main_v6_apply, val_main_v5_apply, val_main_v4_apply, val_main_v3_apply]
  simp only [mask_all, select_one]
  rfl

/-- The float sum over time is the sum of the squared differences. -/
theorem sums_time : val_main_v10 (F := Ideal) x0 x1 = sqSums x0 x1 := by
  funext i
  rw [val_main_v10_apply, val_main_cst_2_apply]
  show Ideal.ofBits .f32 0x00000000#32 + _ = _
  rw [Ideal.ofBits_zero_f32, zero_add]
  unfold sqSums
  refine Finset.sum_congr rfl fun k _ => ?_
  rw [masked_square, idx_time]

/-- The reference's result is the nested means of the sums of squared differences. -/
theorem value : val_main_v29 (F := Ideal) x0 x1
    = meanOfMeans reducesTo_S10000x3_S3_d0 reducesTo_S3_S_d0 h_S_ (sqSums x0 x1) := by
  unfold val_main_v29 val_main_v28 val_main_v27 val_main_v26 val_main_v18 val_main_v17 val_main_v14
  rw [ok_sites, den_sites, ok_time, den_time, sums_time]
  simp only [MaskCount.select_ones]
  rfl

end Cert.ReferenceIdeal.RefValue

end
-- ==== Proof.BlockSums.lean ====
/-
  What one grid point leaves in the two output blocks.

  At a grid point the body holds a [2000, 640] block of each padded input: 2000 time steps of 640
  columns.  Its first output block, [1, 640], is per column the sum over the 2000 rows of the masked
  squared difference; its second is per column the sum over the rows of the mask read as a number.
  At the extended reals the mask is true at every entry (MaskCount), so the first is the plain sum of
  squared differences down the column and the second is 2000.
-/
import proofs.«157164_j7301444403962_1_alg».proof.Proof.Gen.KernelIdeal.Frame
import proofs.«157164_j7301444403962_1_alg».proof.Proof.MaskCount
import proofs.«157164_j7301444403962_1_alg».proof.Proof.MeanSpec
import Idealize.ShloMosaic.Lib.Pipeline.Value
import Idealize.ShloMosaic.Lib.ValueIdx
import Idealize.ShloMosaic.PureOps.Ideal.Laws

noncomputable section

namespace Cert.KernelIdeal.BlockSums

open Cert.KernelIdeal Cert.KernelIdeal.Gen Idealize.ShloMosaic Idealize.ShloMosaic.ValueIdx Cert.MeanSpec

theorem hz : (![0, 0] : Fin 2 → Nat) = fun _ => 0 := funext fun a => by fin_cases a <;> rfl

/-- Row 0, column q of a [1, 640] block is entry q of the [640] vector it was cast from. -/
theorem row_of_vec {α : Type} (v : S640.Idx → α) (q : Fin 640) :
    shapeCast S1x640 v shapeCasts_S640_S1x640 (ix2 (0 : Fin 1) q) = v (ix1 q) :=
  shapeCast_apply v _ _ _ (by rw [Shape.rowMajor_val_one, Shape.rowMajor_val_two]; simp)

/-- The index the column sum inserts: row τ of column q. -/
theorem lift_col (q : Fin 640) (τ : Fin 2000) :
    reduces_S2000x640_S640.lift (ix1 q) τ = ix2 τ q :=
  funext fun a => Fin.ext (by match a with | ⟨0, _⟩ => rfl | ⟨1, _⟩ => rfl)

/-- The lane sum over the rows of a [2000, 640] block, read at column q: the sum down the column. -/
theorem col_sum (src : FVec Ideal S2000x640 .f32) (hφ : FKind.Formats .f32)
    (hacc : (0x00000000#32 : BitVec 32) = 0x00000000#32) (q : Fin 640) :
    multiReduction .add [0] S640 src 0x00000000#32 reduces_S2000x640_S640 hφ hacc (ix1 q)
      = ∑ τ : Fin 2000, src (ix2 τ q) := by
  refine (Ideal.multiReduction_add_single src 0x00000000#32 reduces_S2000x640_S640 hφ hacc (ix1 q)).trans ?_
  exact Finset.sum_congr rfl fun τ _ => congrArg src (lift_col q τ)

/-- The first payload: down column q, the sum of the squared differences. -/
theorem sums_payload (x0 x1 : Vec Ideal S2000x640 .f32) (q : Fin 640) :
    k0_pay4 (F := Ideal) x0 x1 (ix2 (0 : Fin 1) q) = ∑ τ : Fin 2000, sq (x0 (ix2 τ q)) (x1 (ix2 τ q)) := by
  unfold k0_pay4 k0_pay3 k0_pay1 k0_pay2
  simp only [shapeCast_self]
  rw [row_of_vec, MaskCount.kernel_mask]
  simp only [MaskCount.select_ones]
  refine (col_sum _ _ _ q).trans ?_
  rfl

/-- The second payload: down column q, the 2000 ones of the mask. -/
theorem count_payload (x0 x1 : Vec Ideal S2000x640 .f32) (q : Fin 640) :
    k0_pay5 (F := Ideal) x0 x1 (ix2 (0 : Fin 1) q) = (((2000 : ℕ) : ℝ) : EReal) := by
  unfold k0_pay5 k0_pay3 k0_pay1 k0_pay2
  simp only [shapeCast_self]
  rw [row_of_vec, MaskCount.kernel_mask]
  refine (col_sum _ _ _ q).trans ?_
  rw [← MaskCount.sum_ones 2000]
  refine Finset.sum_congr rfl fun τ _ => ?_
  exact MaskCount.sitofp_ext_one

/-- What the body leaves in the sums block, entry by entry. -/
theorem out_sums (x0 x1 : Vec Ideal S2000x640 .f32) (q : Fin 640) :
    out0_2 (F := Ideal) x0 x1 (ix2 (0 : Fin 1) q) = ∑ τ : Fin 2000, sq (x0 (ix2 τ q)) (x1 (ix2 τ q)) := by
  unfold out0_2
  rw [View.canon_unit_zero hz]
  simp only [View.ld_unit_zero (S := S2000x640) hz]
  exact sums_payload x0 x1 q

/-- What the body leaves in the counts block, entry by entry. -/
theorem out_count (x0 x1 : Vec Ideal S2000x640 .f32) (q : Fin 640) :
    out0_3 (F := Ideal) x0 x1 (ix2 (0 : Fin 1) q) = (((2000 : ℕ) : ℝ) : EReal) := by
  unfold out0_3
  rw [View.canon_unit_zero hz]
  simp only [View.ld_unit_zero (S := S2000x640) hz]
  exact count_payload x0 x1 q

/-- The same at any index of the [1, 640] block: its one row is row 0. -/
theorem out_sums_at (x0 x1 : Vec Ideal S2000x640 .f32) (y : S1x640.Idx) :
    out0_2 (F := Ideal) x0 x1 y
      = ∑ τ : Fin 2000, sq (x0 (ix2 τ (show Fin 640 from y 1))) (x1 (ix2 τ (show Fin 640 from y 1))) := by
  obtain ⟨p, q, rfl⟩ : ∃ (p : Fin 1) (q : Fin 640), y = ix2 p q := ⟨y 0, y 1, eq_ix2 y⟩
  obtain rfl : p = 0 := Subsingleton.elim _ _
  exact out_sums x0 x1 q

theorem out_count_at (x0 x1 : Vec Ideal S2000x640 .f32) (y : S1x640.Idx) :
    out0_3 (F := Ideal) x0 x1 y = (((2000 : ℕ) : ℝ) : EReal) := by
  obtain ⟨p, q, rfl⟩ : ∃ (p : Fin 1) (q : Fin 640), y = ix2 p q := ⟨y 0, y 1, eq_ix2 y⟩
  obtain rfl : p = 0 := Subsingleton.elim _ _
  exact out_count x0 x1 q

end Cert.KernelIdeal.BlockSums

end
-- ==== Proof.ColumnArrays.lean ====
/-
  From blocks to arrays: what the two [1, 30080] result arrays hold after the region.

  Grid point t (of 47) fetches columns 640·t … 640·t + 639 of the two padded [2000, 30080] inputs, all
  2000 rows, and writes back columns 640·t … 640·t + 639 of the two [1, 30080] results.  The 47 column
  ranges tile the 30080 columns, so after the last point the first result holds, at every column, the sum
  down that column of the squared differences of the padded inputs, and the second holds 2000 everywhere.
-/
import proofs.«157164_j7301444403962_1_alg».proof.Proof.Gen.KernelIdeal.Frame
import proofs.«157164_j7301444403962_1_alg».proof.Proof.BlockSums
import Idealize.ShloMosaic.Lib.Pipeline.Value
import Idealize.ShloMosaic.Lib.ValueIdx

noncomputable section

namespace Cert.KernelIdeal.ColumnArrays

open Cert.KernelIdeal Cert.KernelIdeal.Gen Idealize.ShloMosaic Idealize.ShloMosaic.TcCoe Idealize.SL.Sem
open Idealize.ShloMosaic.ValueIdx Cert.MeanSpec
open Idealize.ShloMosaic.Pipeline (Dat)

variable (m : (ℓ : Loc nD τ sig) → Buf (Elt Ideal) ℓ)

/-- The first padded input as the region finds it. -/
abbrev pad0 (c : Dev nD) : Vec Ideal S2000x30080 .f32 := V m c main_v2
/-- The second padded input as the region finds it. -/
abbrev pad1 (c : Dev nD) : Vec Ideal S2000x30080 .f32 := V m c main_v3

/-- Per column of two [2000, 30080] arrays, the sum down the column of the squared differences. -/
def colSums (p0 p1 : Vec Ideal S2000x30080 .f32) : Vec Ideal S1x30080 .f32 := fun i =>
  let q : Fin 30080 := i 1
  ∑ τ : Fin 2000, sq (p0 (ix2 τ q)) (p1 (ix2 τ q))

/-- Every column counts its 2000 rows. -/
def colCount : Vec Ideal S1x30080 .f32 := fun _ => (((2000 : ℕ) : ℝ) : EReal)

/-- The printed index maps, decided over the grid: every window sits at block row 0 and block column t. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Row τ, column q of the first input's block at point t is row τ, column 640·t + q of the padded input. -/
theorem blk0_apply (c : Dev nD) (t : Fin cfg0.N) (τ : Fin 2000) (q : Fin 640) (k : Fin 30080)
    (hk : k.val = 640 * t.val + q.val) :
    (iblk m c 0 t : Vec Ideal S2000x640 .f32) (ix2 τ q) = pad0 m c (ix2 τ k) := by
  obtain ⟨e0, e1, -⟩ := idx_facts t
  show V m c main_v2 (((cfg0.win 0).blk t).view.emb (ix2 τ q)) = V m c main_v2 (ix2 τ k)
  refine congrArg (V m c main_v2) (funext fun a => Fin.ext ?_)
  match a with
  | ⟨0, _⟩ => show win0_0.index t (0 : Fin 2) * 2000 + 1 * τ.val = τ.val; omega
  | ⟨1, _⟩ => show win0_0.index t (1 : Fin 2) * 640 + 1 * q.val = k.val; omega

/-- The same for the second input. -/
theorem blk1_apply (c : Dev nD) (t : Fin cfg0.N) (τ : Fin 2000) (q : Fin 640) (k : Fin 30080)
    (hk : k.val = 640 * t.val + q.val) :
    (iblk m c 1 t : Vec Ideal S2000x640 .f32) (ix2 τ q) = pad1 m c (ix2 τ k) := by
  obtain ⟨-, -, e0, e1, -⟩ := idx_facts t
  show V m c main_v3 (((cfg0.win 1).blk t).view.emb (ix2 τ q)) = V m c main_v3 (ix2 τ k)
  refine congrArg (V m c main_v3) (funext fun a => Fin.ext ?_)
  match a with
  | ⟨0, _⟩ => show win0_1.index t (0 : Fin 2) * 2000 + 1 * τ.val = τ.val; omega
  | ⟨1, _⟩ => show win0_1.index t (1 : Fin 2) * 640 + 1 * q.val = k.val; omega

/-- What point t writes back to the sums array is block t of the column sums of the padded inputs. -/
theorem flushed_sums (c : Dev nD) (t : Fin cfg0.N) :
    (dats m 0 c).flushed 2 t = ((cfg0.win 2).blk t).view.read (Elt Ideal) (colSums (pad0 m c) (pad1 m c)) := by
  show (cfg0.win 2).cut (grid0.coords t) ((dats m 0 c).after 2 t) = _
  rw [after0_2]
  obtain ⟨-, -, -, -, e0, e1, -⟩ := idx_facts t
  funext j
  show out0_2 (F := Ideal) (iblk m c 0 t) (iblk m c 1 t) j
    = colSums (pad0 m c) (pad1 m c) (((cfg0.win 2).blk t).view.emb j)
  refine (BlockSums.out_sums_at (iblk m c 0 t) (iblk m c 1 t) j).trans ?_
  unfold colSums
  have hq : ((((cfg0.win 2).blk t).view.emb j) 1).val = 640 * t.val + (j 1).val := by
    show win0_2.index t (1 : Fin 2) * 640 + 1 * (j 1).val = _; omega
  refine Finset.sum_congr rfl fun τ _ => ?_
  rw [blk0_apply m c t τ _ _ hq, blk1_apply m c t τ _ _ hq]

/-- What point t writes back to the counts array is block t of the constant 2000. -/
theorem flushed_count (c : Dev nD) (t : Fin cfg0.N) :
    (dats m 0 c).flushed 3 t = ((cfg0.win 3).blk t).view.read (Elt Ideal) colCount := by
  show (cfg0.win 3).cut (grid0.coords t) ((dats m 0 c).after 3 t) = _
  rw [after0_3]
  funext j
  show out0_3 (F := Ideal) (iblk m c 0 t) (iblk m c 1 t) j = colCount (((cfg0.win 3).blk t).view.emb j)
  exact BlockSums.out_count_at (iblk m c 0 t) (iblk m c 1 t) j

/-- An index of the sums array is in point t's block iff its column is in columns 640·t … 640·t + 639. -/
theorem mem_blk_sums (t : Fin cfg0.N) (i : S1x30080.Idx) :
    i ∈ ((cfg0.win 2).blk t).view.set ↔ ∀ a : Fin 2, win0_2.index t a * S1x640.size a ≤ (i a).val ∧ (i a).val < win0_2.index t a * S1x640.size a + S1x640.size a := by
  show i ∈ ((View.whole main_v4_0).slice (win0_2.rect t)).set ↔ _
  rw [View.set_slice_whole, Rect.mem_set_unit]
  exact Iff.rfl

theorem mem_blk_count (t : Fin cfg0.N) (i : S1x30080.Idx) :
    i ∈ ((cfg0.win 3).blk t).view.set ↔ ∀ a : Fin 2, win0_3.index t a * S1x640.size a ≤ (i a).val ∧ (i a).val < win0_3.index t a * S1x640.size a + S1x640.size a := by
  show i ∈ ((View.whole main_v4_1).slice (win0_3.rect t)).set ↔ _
  rw [View.set_slice_whole, Rect.mem_set_unit]
  exact Iff.rfl

/-- Column i 1 lies in the block of point (i 1) / 640. -/
theorem point_of (i : S1x30080.Idx) : (i 1).val / 640 < cfg0.N := by
  have h : (i 1).val < 30080 := (i 1).isLt
  rw [show cfg0.N = 47 from N_0]; omega

/-- The sums array after the region: the column sums of the padded inputs. -/
theorem final_sums (c : Dev nD) : (dats m 0 c).arrAt 2 cfg0.N = colSums (pad0 m c) (pad1 m c) :=
  (dats m 0 c).arrAt_eq_of_cover 2 (colSums (pad0 m c) (pad1 m c)) (fun t _ => flushed_sums m c t) fun i => by
    have h0 : (i 0).val < 1 := (i 0).isLt
    have h1 : (i 1).val < 30080 := (i 1).isLt
    refine ⟨⟨(i 1).val / 640, point_of i⟩, flush0_2 _, ?_⟩
    rw [mem_blk_sums]
    obtain ⟨-, -, -, -, e0, e1, -⟩ := idx_facts ⟨(i 1).val / 640, point_of i⟩
    intro a
    match a with
    | ⟨0, _⟩ => show win0_2.index _ (0 : Fin 2) * 1 ≤ (i 0).val ∧ (i 0).val < win0_2.index _ (0 : Fin 2) * 1 + 1; rw [e0]; omega
    | ⟨1, _⟩ => show win0_2.index _ (1 : Fin 2) * 640 ≤ (i 1).val ∧ (i 1).val < win0_2.index _ (1 : Fin 2) * 640 + 640; rw [e1]; show (i 1).val / 640 * 640 ≤ _ ∧ _ < (i 1).val / 640 * 640 + 640; omega

/-- The counts array after the region: 2000 at every column. -/
theorem final_count (c : Dev nD) : (dats m 0 c).arrAt 3 cfg0.N = colCount :=
  (dats m 0 c).arrAt_eq_of_cover 3 colCount (fun t _ => flushed_count m c t) fun i => by
    have h0 : (i 0).val < 1 := (i 0).isLt
    have h1 : (i 1).val < 30080 := (i 1).isLt
    refine ⟨⟨(i 1).val / 640, point_of i⟩, flush0_3 _, ?_⟩
    rw [mem_blk_count]
    obtain ⟨-, -, -, -, -, -, e0, e1⟩ := idx_facts ⟨(i 1).val / 640, point_of i⟩
    intro a
    match a with
    | ⟨0, _⟩ => show win0_3.index _ (0 : Fin 2) * 1 ≤ (i 0).val ∧ (i 0).val < win0_3.index _ (0 : Fin 2) * 1 + 1; rw [e0]; omega
    | ⟨1, _⟩ => show win0_3.index _ (1 : Fin 2) * 640 ≤ (i 1).val ∧ (i 1).val < win0_3.index _ (1 : Fin 2) * 640 + 640; rw [e1]; show (i 1).val / 640 * 640 ≤ _ ∧ _ < (i 1).val / 640 * 640 + 640; omega

end Cert.KernelIdeal.ColumnArrays

end
-- ==== Proof.PaddedInputs.lean ====
/-
  The padded inputs, read at an index.

  Before the region each [2000, 10000, 3] argument is reshaped to [2000, 30000] (site j, variable v at
  column 3·j + v) and padded on the right with 80 columns of the padding value to [2000, 30080].
  So row r, column 3·j + v of a padded input is the argument at time r, site j, variable v.
-/
import proofs.«157164_j7301444403962_1_alg».proof.Proof.Gen.KernelIdeal.Frame
import proofs.«157164_j7301444403962_1_alg».proof.Proof.ColumnArrays
import Idealize.ShloMosaic.Lib.Pipeline.Value
import Idealize.ShloMosaic.Lib.KernelVsHost
import Idealize.ShloMosaic.Lib.StableHlo.Run
import Idealize.ShloMosaic.Lib.ValueIdx

noncomputable section

namespace Cert.KernelIdeal.PaddedInputs

open Cert.KernelIdeal Cert.KernelIdeal.Gen Idealize.ShloMosaic Idealize.ShloMosaic.TcCoe Idealize.SL.Sem
open Idealize.ShloMosaic.ValueIdx Idealize.ShloMosaic.StableHlo Cert.KernelIdeal.ColumnArrays

variable (m : (ℓ : Loc nD τ sig) → Buf (Elt Ideal) ℓ)

/-- The first argument as launched. -/
abbrev arg0 (c : Dev nD) : Vec Ideal S2000x10000x3 .f32 := m ((c : Thread nD τ).loc main_arg0)
/-- The second argument as launched. -/
abbrev arg1 (c : Dev nD) : Vec Ideal S2000x10000x3 .f32 := m ((c : Thread nD τ).loc main_arg1)

/-- The first padded input is the pad of the reshape of the first argument. -/
theorem pad0_eq (c : Dev nD) :
    pad0 m c = pad S2000x30080 ![0, 0] ![0, 80] ![0, 0]
      (shapeCast S2000x30000 (arg0 m c) shapeCasts_S2000x10000x3_S2000x30000)
      (sitofp (F := Ideal) .f32 (constantI S_ 32 0#32)) pads_S2000x30000_S2000x30080_000_0800 h_S_ := by
  dsimp only [pad0, V, V0]
  simp only [hostOps0, hostOps0_1, hostOps0_2, hostOps0_3, List.flatten_cons, List.flatten_nil, List.append_nil,
    List.cons_append, List.nil_append]
  after_results
  rfl

/-- The second padded input is the pad of the reshape of the second argument. -/
theorem pad1_eq (c : Dev nD) :
    pad1 m c = pad S2000x30080 ![0, 0] ![0, 80] ![0, 0]
      (shapeCast S2000x30000 (arg1 m c) shapeCasts_S2000x10000x3_S2000x30000)
      (sitofp (F := Ideal) .f32 (constantI S_ 32 0#32)) pads_S2000x30000_S2000x30080_000_0800 h_S_ := by
  dsimp only [pad1, V, V0]
  simp only [hostOps0, hostOps0_1, hostOps0_2, hostOps0_3, List.flatten_cons, List.flatten_nil, List.append_nil,
    List.cons_append, List.nil_append]
  after_results
  rfl

/-- A pad of a reshape of a [2000, 10000, 3] array, read at row r and column 3·j + v. -/
theorem pad_reshape_apply (x : Vec Ideal S2000x10000x3 .f32) (z : S_.Idx → EReal)
    (r : Fin 2000) (j : Fin 10000) (v : Fin 3) (k : Fin 30080) (hk : k.val = 3 * j.val + v.val) :
    pad S2000x30080 ![0, 0] ![0, 80] ![0, 0]
      (shapeCast S2000x30000 x shapeCasts_S2000x10000x3_S2000x30000) z
      pads_S2000x30000_S2000x30080_000_0800 h_S_ (ix2 r k) = x (ix3 r j v) := by
  have hj : j.val < 10000 := j.isLt
  have hv : v.val < 3 := v.isLt
  have hk' : k.val < 30000 := by omega
  refine (pad_apply_of_inside _ _ _ _ z pads_S2000x30000_S2000x30080_000_0800 h_S_ (ix2 r k)
    (ix2 r (⟨k.val, hk'⟩ : Fin 30000)) (fun a => ?_)).trans ?_
  · match a with
    | ⟨0, _⟩ => show r.val = 0 + r.val * (0 + 1); omega
    | ⟨1, _⟩ => show k.val = 0 + k.val * (0 + 1); omega
  · refine shapeCast_apply x _ _ (ix3 r j v) ?_
    rw [Shape.rowMajor_val_three, Shape.rowMajor_val_two]
    show (r.val * 10000 + j.val) * 3 + v.val = r.val * 30000 + k.val
    omega

theorem pad0_apply (c : Dev nD) (r : Fin 2000) (j : Fin 10000) (v : Fin 3) (k : Fin 30080)
    (hk : k.val = 3 * j.val + v.val) : pad0 m c (ix2 r k) = arg0 m c (ix3 r j v) := by
  rw [pad0_eq]; exact pad_reshape_apply (arg0 m c) _ r j v k hk

theorem pad1_apply (c : Dev nD) (r : Fin 2000) (j : Fin 10000) (v : Fin 3) (k : Fin 30080)
    (hk : k.val = 3 * j.val + v.val) : pad1 m c (ix2 r k) = arg1 m c (ix3 r j v) := by
  rw [pad1_eq]; exact pad_reshape_apply (arg1 m c) _ r j v k hk

end Cert.KernelIdeal.PaddedInputs

end
-- ==== Proof.KernelTail.lean ====
/-
  The host lines after the region.

  After the region @main cuts each [1, 30080] result back to its first 30000 columns, lays them out as
  [10000, 3] (column 3·j + v is site j, variable v), and takes the three nested means: sums over counts
  clamped below by one, kept where the count is positive; then over sites; then over variables.  With
  the counts array constantly 2000 every clamp and every test is decided, the count of valid sites is
  10000, and the lines compute the specification's nested means of the [10000, 3] sums.
-/
import proofs.«157164_j7301444403962_1_alg».proof.Proof.Gen.KernelIdeal.Frame
import proofs.«157164_j7301444403962_1_alg».proof.Proof.ColumnArrays
import proofs.«157164_j7301444403962_1_alg».proof.Proof.PaddedInputs
import proofs.«157164_j7301444403962_1_alg».proof.Proof.MaskCount
import proofs.«157164_j7301444403962_1_alg».proof.Proof.MeanSpec
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.KernelTail

open Cert.KernelIdeal Cert.KernelIdeal.Gen Idealize.ShloMosaic Idealize.ShloMosaic.TcCoe Idealize.SL.Sem
open Idealize.ShloMosaic.ValueIdx Idealize.ShloMosaic.StableHlo Cert.MeanSpec
open Cert.KernelIdeal.ColumnArrays Cert.KernelIdeal.PaddedInputs

/-- A [1, 30080] array cut to 30000 columns and laid out as site × variable. -/
def sites (s : Vec Ideal S1x30080 .f32) : Vec Ideal S10000x3 .f32 :=
  shapeCast S10000x3
    (shapeCast S30000 (extractStridedSlice S1x30000 ![0, 0] s slices_S1x30080_S1x30000_0_0) shapeCasts_S1x30000_S30000)
    shapeCasts_S30000_S10000x3

/-- The lines after the region as one function of the two result arrays. -/
def tailOf (s cnt : Vec Ideal S1x30080 .f32) : Vec Ideal S_ .f32 :=
  let ok1 : IVec S10000x3 1 :=
    cmpf .ogt (sites cnt) (broadcastInDim S10000x3 ![] bcast_S_S10000x3 (constant (F := Ideal) S_ .f32 0x00000000#32))
  let mean : Vec Ideal S10000x3 .f32 :=
    Host.divf (sites s)
      (maximumf (sites cnt) (broadcastInDim S10000x3 ![] bcast_S_S10000x3 (constant (F := Ideal) S_ .f32 0x3F800000#32)))
  let sumj : Vec Ideal S3 .f32 :=
    Host.reduceAdd
      (select ok1 mean (broadcastInDim S10000x3 ![] bcast_S_S10000x3 (id (constant (F := Ideal) S_ .f32 0x00000000#32))))
      (constant (F := Ideal) S_ .f32 0x00000000#32) reducesTo_S10000x3_S3_d0 h_S_
  let cs : Vec Ideal S3 .f32 :=
    Host.reduceAdd (uitofp (F := Ideal) .f32 ok1) (constant (F := Ideal) S_ .f32 0x00000000#32) reducesTo_S10000x3_S3_d0 h_S_
  let ok2 : IVec S3 1 :=
    cmpf .ogt cs (broadcastInDim S3 ![] bcast_S_S3 (constant (F := Ideal) S_ .f32 0x00000000#32))
  let perk : Vec Ideal S3 .f32 :=
    Host.divf sumj (maximumf cs (broadcastInDim S3 ![] bcast_S_S3 (constant (F := Ideal) S_ .f32 0x3F800000#32)))
  Host.divf
    (Host.reduceAdd
      (select ok2 perk (broadcastInDim S3 ![] bcast_S_S3 (id (constant (F := Ideal) S_ .f32 0x00000000#32))))
      (constant (F := Ideal) S_ .f32 0x00000000#32) reducesTo_S3_S_d0 h_S_)
    (constant (F := Ideal) S_ .f32 0x40400000#32)

variable (m : (ℓ : Loc nD τ sig) → Buf (Elt Ideal) ℓ)

/-- The three operations of the first inlined select (sites kept where the count is positive), over the buffers
    themselves. -/
theorem where_sites : (hostOps1_1 : List (HloOp τ sig (Elt Ideal))) =
    [ unary main_cst_2 main_call2_v0 (id : (⟨S_, .f32⟩ : BufTy).Contents (Elt Ideal) → (⟨S_, .f32⟩ : BufTy).Contents (Elt Ideal)),
      unary main_call2_v0 main_call2_v1 (broadcastInDim S10000x3 ![] bcast_S_S10000x3 : (⟨S_, .f32⟩ : BufTy).Contents (Elt Ideal) → (⟨S10000x3, .f32⟩ : BufTy).Contents (Elt Ideal)),
      ternary main_v15 main_v13 main_call2_v1 main_v16 (select : (⟨S10000x3, .i1⟩ : BufTy).Contents (Elt Ideal) → (⟨S10000x3, .f32⟩ : BufTy).Contents (Elt Ideal) → (⟨S10000x3, .f32⟩ : BufTy).Contents (Elt Ideal) → (⟨S10000x3, .f32⟩ : BufTy).Contents (Elt Ideal)) ] := rfl

/-- The three operations of the second inlined select (variables kept where some site is valid). -/
theorem where_vars : (hostOps1_3 : List (HloOp τ sig (Elt Ideal))) =
    [ unary main_cst_7 main_call3_v0 (id : (⟨S_, .f32⟩ : BufTy).Contents (Elt Ideal) → (⟨S_, .f32⟩ : BufTy).Contents (Elt Ideal)),
      unary main_call3_v0 main_call3_v1 (broadcastInDim S3 ![] bcast_S_S3 : (⟨S_, .f32⟩ : BufTy).Contents (Elt Ideal) → (⟨S3, .f32⟩ : BufTy).Contents (Elt Ideal)),
      ternary main_v21 main_v24 main_call3_v1 main_v25 (select : (⟨S3, .i1⟩ : BufTy).Contents (Elt Ideal) → (⟨S3, .f32⟩ : BufTy).Contents (Elt Ideal) → (⟨S3, .f32⟩ : BufTy).Contents (Elt Ideal) → (⟨S3, .f32⟩ : BufTy).Contents (Elt Ideal)) ] := rfl

set_option maxHeartbeats 2000000 in
/-- What the result buffer holds after the lines that follow the region: those lines applied to the two
    result arrays as the region leaves them. -/
theorem tail_eq (c : Dev nD) :
    Pipeline.afterTail₀ cfgs (dats m) 0 (V0 m) [hostOps1, hostOps1_1, hostOps1_2, hostOps1_3, hostOps1_4] c main_v27
      = tailOf ((dats m 0 c).arrAt 2 cfg0.N) ((dats m 0 c).arrAt 3 cfg0.N) := by
  unfold Pipeline.afterTail₀
  show StableHlo.after (List.flatten [hostOps1, hostOps1_1, hostOps1_2, hostOps1_3, hostOps1_4]) _ (Proc.devRef .tc main_v27) = _
  rw [where_sites, where_vars]
  simp only [hostOps1, hostOps1_2, hostOps1_4, List.flatten_cons, List.flatten_nil, List.append_nil,
    List.cons_append, List.nil_append]
  after_results_simp
  rw [Pipeline.withArrays_arr spec0 launch0.win.arr_inj c _ _ 2, Pipeline.withArrays_arr spec0 launch0.win.arr_inj c _ _ 3]
  rfl

end Cert.KernelIdeal.KernelTail

end
-- ==== Proof.KernelValue.lean ====
/-
  The kernel's result is the specification.

  The counts array is constantly 2000, so in the lines after the region every site is valid, every
  clamp keeps 2000, the count of valid sites is 10000 for each variable, and those lines are the
  specification's nested means of the sums array laid out as site × variable.  Column 3·j + v of the
  sums array is the sum over time of the squared differences of the padded inputs in that column, which
  are the arguments at site j, variable v.
-/
import proofs.«157164_j7301444403962_1_alg».proof.Proof.KernelTail

noncomputable section

namespace Cert.KernelIdeal.KernelValue

open Cert.KernelIdeal Cert.KernelIdeal.Gen Idealize.ShloMosaic Idealize.ShloMosaic.TcCoe Idealize.SL.Sem
open Idealize.ShloMosaic.ValueIdx Cert.MeanSpec
open Cert.KernelIdeal.ColumnArrays Cert.KernelIdeal.PaddedInputs Cert.KernelIdeal.KernelTail

/-- A constant array, cut and laid out, is the constant. -/
theorem sites_const (z : EReal) : sites (fun _ => z) = fun _ => z := rfl

/-- Every site is valid when every count is 2000. -/
theorem sites_valid :
    cmpf (F := Ideal) .ogt (fun _ : S10000x3.Idx => (((2000 : ℕ) : ℝ) : EReal)) (fun _ => Ideal.ofBits .f32 0x00000000#32)
      = fun _ => 1#1 :=
  funext fun _ => MaskCount.ogt_count_zero 2000 (by norm_num)

/-- The clamp below by one keeps 2000. -/
theorem clamp_time :
    maximumf (F := Ideal) (fun _ : S10000x3.Idx => (((2000 : ℕ) : ℝ) : EReal)) (fun _ => Ideal.ofBits .f32 0x3F800000#32)
      = fun _ => (((2000 : ℕ) : ℝ) : EReal) :=
  funext fun _ => MaskCount.max_count_one 2000 (by norm_num)

/-- Each variable counts its 10000 valid sites. -/
theorem valid_count :
    Host.reduceAdd (uitofp (F := Ideal) .f32 (fun _ : S10000x3.Idx => (1#1 : BitVec 1)))
        (constant (F := Ideal) S_ .f32 0x00000000#32) reducesTo_S10000x3_S3_d0 h_S_
      = fun _ => (((10000 : ℕ) : ℝ) : EReal) := by
  funext i
  simp only [Host.reduceAdd, Ideal.hostReduceAdd_def]
  rw [Ideal.hostReduceAdd_single reducesTo_S10000x3_S3_d0 (by decide)]
  show Ideal.ofBits .f32 0x00000000#32 + ∑ _k : Fin 10000, FloatOps.uitofp (F := Ideal) .f32 (1#1 : BitVec 1) = _
  rw [Ideal.ofBits_zero_f32, zero_add, MaskCount.uitofp_one]
  exact MaskCount.sum_ones 10000

/-- Every variable is valid when every count of valid sites is 10000. -/
theorem vars_valid :
    cmpf (F := Ideal) .ogt (fun _ : S3.Idx => (((10000 : ℕ) : ℝ) : EReal)) (fun _ => Ideal.ofBits .f32 0x00000000#32)
      = fun _ => 1#1 :=
  funext fun _ => MaskCount.ogt_count_zero 10000 (by norm_num)

/-- The clamp below by one keeps 10000. -/
theorem clamp_sites :
    maximumf (F := Ideal) (fun _ : S3.Idx => (((10000 : ℕ) : ℝ) : EReal)) (fun _ => Ideal.ofBits .f32 0x3F800000#32)
      = fun _ => (((10000 : ℕ) : ℝ) : EReal) :=
  funext fun _ => MaskCount.max_count_one 10000 (by norm_num)

/-- With every count at 2000 the lines after the region are the nested means of the laid-out sums. -/
theorem tail_at_full (s : Vec Ideal S1x30080 .f32) :
    tailOf s colCount = meanOfMeans reducesTo_S10000x3_S3_d0 reducesTo_S3_S_d0 h_S_ (sites s) := by
  have z2 : broadcastInDim S10000x3 ![] bcast_S_S10000x3 (constant (F := Ideal) S_ .f32 0x00000000#32)
      = fun _ => Ideal.ofBits .f32 0x00000000#32 := rfl
  have o2 : broadcastInDim S10000x3 ![] bcast_S_S10000x3 (constant (F := Ideal) S_ .f32 0x3F800000#32)
      = fun _ => Ideal.ofBits .f32 0x3F800000#32 := rfl
  have z1 : broadcastInDim S3 ![] bcast_S_S3 (constant (F := Ideal) S_ .f32 0x00000000#32)
      = fun _ => Ideal.ofBits .f32 0x00000000#32 := rfl
  have o1 : broadcastInDim S3 ![] bcast_S_S3 (constant (F := Ideal) S_ .f32 0x3F800000#32)
      = fun _ => Ideal.ofBits .f32 0x3F800000#32 := rfl
  unfold tailOf colCount
  simp only [sites_const]
  rw [z2, o2, z1, o1, sites_valid, clamp_time]
  simp only [MaskCount.select_ones]
  rw [valid_count, vars_valid, clamp_sites]
  simp only [MaskCount.select_ones]
  rfl

variable (m : (ℓ : Loc nD τ sig) → Buf (Elt Ideal) ℓ)

/-- Site j, variable v of the laid-out column sums is the sum over time of the arguments' squared differences. -/
theorem sites_colSums (c : Dev nD) : sites (colSums (pad0 m c) (pad1 m c)) = sqSums (arg0 m c) (arg1 m c) := by
  funext i
  obtain ⟨j, v, rfl⟩ : ∃ (j : Fin 10000) (v : Fin 3), i = ix2 j v := ⟨i 0, i 1, eq_ix2 i⟩
  have hj : j.val < 10000 := j.isLt
  have hv : v.val < 3 := v.isLt
  have hq : 3 * j.val + v.val < 30000 := by omega
  have hk : 3 * j.val + v.val < 30080 := by omega
  unfold sites
  refine (shapeCast_apply _ _ (ix2 j v) (ix1 (⟨3 * j.val + v.val, hq⟩ : Fin 30000)) ?_).trans ?_
  · rw [Shape.rowMajor_val_one, Shape.rowMajor_val_two]
    show 3 * j.val + v.val = j.val * 3 + v.val
    omega
  refine (shapeCast_apply _ _ (ix1 (⟨3 * j.val + v.val, hq⟩ : Fin 30000)) (ix2 (0 : Fin 1) (⟨3 * j.val + v.val, hq⟩ : Fin 30000)) ?_).trans ?_
  · rw [Shape.rowMajor_val_one, Shape.rowMajor_val_two]
    show 0 * 30000 + (3 * j.val + v.val) = 3 * j.val + v.val
    omega
  refine (extractStridedSlice_apply _ _ _ (ix2 (0 : Fin 1) (⟨3 * j.val + v.val, hq⟩ : Fin 30000))
    (ix2 (0 : Fin 1) (⟨3 * j.val + v.val, hk⟩ : Fin 30080)) (fun a => ?_)).trans ?_
  · match a with
    | ⟨0, _⟩ => rfl
    | ⟨1, _⟩ => show 3 * j.val + v.val = 0 + (3 * j.val + v.val); omega
  unfold colSums sqSums
  refine Finset.sum_congr rfl fun r _ => ?_
  show sq (pad0 m c (ix2 r ⟨3 * j.val + v.val, hk⟩)) (pad1 m c (ix2 r ⟨3 * j.val + v.val, hk⟩)) = sq (arg0 m c (ix3 r j v)) (arg1 m c (ix3 r j v))
  rw [pad0_apply m c r j v ⟨3 * j.val + v.val, hk⟩ rfl, pad1_apply m c r j v ⟨3 * j.val + v.val, hk⟩ rfl]

/-- What the result buffer holds after @main: the specification at the arguments. -/
theorem result_eq (c : Dev nD) :
    Pipeline.afterTail₀ cfgs (dats m) 0 (V0 m) [hostOps1, hostOps1_1, hostOps1_2, hostOps1_3, hostOps1_4] c main_v27
      = meanOfMeans reducesTo_S10000x3_S3_d0 reducesTo_S3_S_d0 h_S_ (sqSums (arg0 m c) (arg1 m c)) := by
  rw [tail_eq, final_sums, final_count, tail_at_full, sites_colSums]

/-- The kernel's run: the result at the specification of the arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v27)
        = meanOfMeans reducesTo_S10000x3_S3_d0 reducesTo_S3_S_d0 h_S_ (sqSums (arg0 m c) (arg1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v27 (Pipeline.mem_restRefs_of main_v27 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelValue

end
-- ==== Proof.lean ====
/-
  Masked mean-squared-error: a column-tiled kernel against its jnp reference, over the extended reals.

  Both programs take two [2000, 10000, 3] arrays o and t (time × site × variable) and return
      (1/3) Σ_v (1/10000) Σ_j (1/2000) Σ_r (o[r, j, v] − t[r, j, v])²,
  the mean over variables of the mean over sites of the mean over time of the squared difference.
  Each masks the squares by "the difference is not a NaN" and divides by the counts of valid entries;
  at the extended reals no value is unordered, so every mask is true and every count is the full extent
  of its axis (2000 time steps, 10000 sites).

  The kernel reshapes the arrays to [2000, 30000], pads the columns to 30080 = 47 · 640 and, at each of
  47 grid points, sums 640 columns over their 2000 rows; the padding columns are cut off again before
  the means.  The reference sums over time directly and counts in integer words.  The two sides differ
  only in how the indices are laid out and in how the counts are held; the sums have the same terms.

  · MeanSpec     — the specification: the per-site sums and the three nested means.
  · MaskCount    — the masks are true; float and word counts of ones; 2000 and 10000 as numbers.
  · BlockSums    — what one grid point leaves in its two output blocks.
  · ColumnArrays — the two result arrays after all 47 points.
  · PaddedInputs — the padded inputs read at an index.
  · KernelTail, KernelValue — the host lines after the region, and the kernel's run.
  · RefRun, RefRead, RefValue — the reference's run, its stages, and its value.
-/
import proofs.«157164_j7301444403962_1_alg».proof.Defs
import proofs.«157164_j7301444403962_1_alg».proof.Proof.Gen.Kernel
import proofs.«157164_j7301444403962_1_alg».proof.Proof.Gen.Kernel.Skeleton
import proofs.«157164_j7301444403962_1_alg».proof.Proof.Gen.Kernel.Launch
import proofs.«157164_j7301444403962_1_alg».proof.Proof.Gen.Kernel.Points
import proofs.«157164_j7301444403962_1_alg».proof.Proof.Gen.Kernel.Frame
import proofs.«157164_j7301444403962_1_alg».proof.Proof.Gen.KernelIdeal
import proofs.«157164_j7301444403962_1_alg».proof.Proof.Gen.KernelIdeal.Skeleton
import proofs.«157164_j7301444403962_1_alg».proof.Proof.Gen.KernelIdeal.Launch
import proofs.«157164_j7301444403962_1_alg».proof.Proof.Gen.KernelIdeal.Points
import proofs.«157164_j7301444403962_1_alg».proof.Proof.Gen.KernelIdeal.Frame
import proofs.«157164_j7301444403962_1_alg».proof.Proof.Gen.ReferenceIdeal
import proofs.«157164_j7301444403962_1_alg».proof.Proof.Gen.Pre_finite_inputs
import proofs.«157164_j7301444403962_1_alg».proof.Proof.RefRun
import proofs.«157164_j7301444403962_1_alg».proof.Proof.RefRead
import proofs.«157164_j7301444403962_1_alg».proof.Proof.RefValue
import proofs.«157164_j7301444403962_1_alg».proof.Proof.KernelValue
import Idealize.ShloMosaic.Adequacy
import Idealize.ShloMosaic.Init

noncomputable section

namespace Cert.Proof

open Idealize.ShloMosaic Idealize.SL.Sem Cert.MeanSpec

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the nested means of the sums of
    squared differences of those arguments. -/
theorem algebraic : Cert.algebraic_KernelIdeal_ReferenceIdeal := by
  intro m ρ m' ρ' _ hagree
  refine ⟨fun c => meanOfMeans Cert.KernelIdeal.Gen.reducesTo_S10000x3_S3_d0 Cert.KernelIdeal.Gen.reducesTo_S3_S_d0
      Cert.KernelIdeal.Gen.h_S_
      (sqSums (Cert.KernelIdeal.PaddedInputs.arg0 m c) (Cert.KernelIdeal.PaddedInputs.arg1 m c)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.value, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
